-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096 .f32) (main_arg5 : FVec F S4096x1024 .f32) (main_arg6 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024 .f32) (main_arg2 : FVec F S1024 .f32) (main_arg3 : FVec F S1024x4096 .f32) (main_arg4 : FVec F S4096 .f32) (main_arg5 : FVec F S4096x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1x1024 : Shape := ⟨2, ![1, 1024]⟩
abbrev S1x4096 : Shape := ⟨2, ![1, 4096]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x4096, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S8192x1024, .f32⟩
  | .hbm, ⟨15, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x2048x1024_S8192x1024 : S4x2048x1024.ShapeCasts S8192x1024
  shapeCasts_S1024_S1x1024 : S1024.ShapeCasts S1x1024
  shapeCasts_S4096_S1x4096 : S4096.ShapeCasts S1x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S8192x1024_S4x2048x1024 : S8192x1024.ShapeCasts S4x2048x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S4x2048x4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The function both programs compute, one row at a time, on the extended reals.

  A row `r` of 1024 numbers is normalised (its mean subtracted, then scaled by the reciprocal square root of its
  variance plus a small constant, then by a gain `g` and shifted by `β`), sent through a linear layer into 4096
  features with a bias, clipped below at zero, and sent through a second linear layer back to 1024 features with a
  bias.  Every sum is a plain finite sum over the contracted coordinate, every division the exact one by the
  float 1024, and the three constants are kept as the bit patterns both programs print (the same pattern denotes
  the same extended real on both sides, so none is ever evaluated).
-/
import Idealize.ShloMosaic.PureOps.Ideal
import Idealize.ShloMosaic.PureOps.Ideal.Laws
import Idealize.ShloMosaic.Lib.ValueIdx

noncomputable section

namespace Cert.Ffn

open Idealize.ShloMosaic

/-- The mean of a row: its sum divided by the float 1024. -/
def mean (r : Fin 1024 → EReal) : EReal :=
  Ideal.div (∑ k : Fin 1024, r k) (Ideal.ofBits .f32 0x44800000#32)

/-- A row with its mean taken off. -/
def centred (r : Fin 1024 → EReal) (k : Fin 1024) : EReal := r k - mean r

/-- The layer norm of a row at coordinate `k`: the centred entry times the reciprocal square root of the mean of the
    centred squares plus the constant, times the gain, plus the shift. -/
def normed (r g β : Fin 1024 → EReal) (k : Fin 1024) : EReal :=
  centred r k * Ideal.rsqrt (mean (fun k' => centred r k' * centred r k') + Ideal.ofBits .f32 0x3727C5AC#32) * g k + β k

/-- The hidden feature `f` of a row: the normalised row against column `f` of the first weight matrix, plus the bias,
    clipped below at zero. -/
def hidden (r g β : Fin 1024 → EReal) (w₁ : Fin 1024 → Fin 4096 → EReal) (b₁ : Fin 4096 → EReal) (f : Fin 4096) : EReal :=
  max ((∑ k : Fin 1024, normed r g β k * w₁ k f) + b₁ f) (Ideal.ofBits .f32 0x00000000#32)

/-- The output feature `d` of a row: the hidden features against column `d` of the second weight matrix, plus the bias. -/
def ffn (r g β : Fin 1024 → EReal) (w₁ : Fin 1024 → Fin 4096 → EReal) (b₁ : Fin 4096 → EReal)
    (w₂ : Fin 4096 → Fin 1024 → EReal) (b₂ : Fin 1024 → EReal) (d : Fin 1024) : EReal :=
  (∑ f : Fin 4096, hidden r g β w₁ b₁ f * w₂ f d) + b₂ d

/-- The whole result: entry (b, s, d) is output coordinate d of row (b, s) of the input `a₀` through the row function,
    with the gain `a₁`, the shift `a₂`, the weight matrices `a₃`, `a₅` and the biases `a₄`, `a₆`. -/
def resultFn (a₀ : (⟨3, ![4, 2048, 1024]⟩ : Shape).Idx → EReal) (a₁ a₂ : (⟨1, ![1024]⟩ : Shape).Idx → EReal)
    (a₃ : (⟨2, ![1024, 4096]⟩ : Shape).Idx → EReal) (a₄ : (⟨1, ![4096]⟩ : Shape).Idx → EReal)
    (a₅ : (⟨2, ![4096, 1024]⟩ : Shape).Idx → EReal) (a₆ : (⟨1, ![1024]⟩ : Shape).Idx → EReal) :
    (⟨3, ![4, 2048, 1024]⟩ : Shape).Idx → EReal := fun i =>
  ffn (fun k => a₀ (ValueIdx.ix3 (⟨(i 0).val, (i 0).isLt⟩ : Fin 4) (⟨(i 1).val, (i 1).isLt⟩ : Fin 2048) k))
    (fun k => a₁ (ValueIdx.ix1 k)) (fun k => a₂ (ValueIdx.ix1 k)) (fun k f => a₃ (ValueIdx.ix2 k f))
    (fun f => a₄ (ValueIdx.ix1 f)) (fun f e => a₅ (ValueIdx.ix2 f e)) (fun e => a₆ (ValueIdx.ix1 e))
    (⟨(i 2).val, (i 2).isLt⟩ : Fin 1024)

end Cert.Ffn

end
-- ==== Proof.RefSide.lean ====
/-
  The reference, read index by index: its result at (b, s, d) is the row function `Cert.Ffn.ffn` of row (b, s) of the
  input, the gain, the shift, the two weight matrices and the two biases, at output coordinate d.
-/
import proofs.«125265_j53987738911461_1_alg».proof.Proof.Gen.ReferenceIdeal.Read
import proofs.«125265_j53987738911461_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

open Cert.ReferenceIdeal.Read

/-- The mean the reference keeps at (b, s, 0): the row's sum (the sum's initial value is zero) over the float 1024. -/
theorem mean_at (x0 : (⟨S4x2048x1024, .f32⟩ : BufTy).Contents (Elt Ideal)) (b : Fin 4) (s : Fin 2048) :
    val_main_v3 (F := Ideal) x0 (ix3 b s (0 : Fin 1)) = Cert.Ffn.mean (fun k => x0 (ix3 b s k)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold Cert.Ffn.mean
  refine congrArg (Ideal.div · _) (Finset.sum_congr rfl fun k _ => congrArg x0 ?_)
  exact funext fun a => Fin.ext (by match a with | ⟨0, _⟩ => rfl | ⟨1, _⟩ => rfl | ⟨2, _⟩ => rfl)

/-- The mean broadcast along the row, first copy. -/
theorem bmean_at (x0 : (⟨S4x2048x1024, .f32⟩ : BufTy).Contents (Elt Ideal)) (b : Fin 4) (s : Fin 2048) (k : Fin 1024) :
    val_main_v4 (F := Ideal) x0 (ix3 b s k) = Cert.Ffn.mean (fun k => x0 (ix3 b s k)) := by
  rw [val_main_v4_apply, ← mean_at]
  exact congrArg (val_main_v3 (F := Ideal) x0)
    (funext fun a => Fin.ext (by match a with | ⟨0, _⟩ => rfl | ⟨1, _⟩ => rfl | ⟨2, _⟩ => rfl))

/-- The mean broadcast along the row, second copy. -/
theorem bmean_at' (x0 : (⟨S4x2048x1024, .f32⟩ : BufTy).Contents (Elt Ideal)) (b : Fin 4) (s : Fin 2048) (k : Fin 1024) :
    val_main_v11 (F := Ideal) x0 (ix3 b s k) = Cert.Ffn.mean (fun k => x0 (ix3 b s k)) := by
  rw [val_main_v11_apply, ← mean_at]
  exact congrArg (val_main_v3 (F := Ideal) x0)
    (funext fun a => Fin.ext (by match a with | ⟨0, _⟩ => rfl | ⟨1, _⟩ => rfl | ⟨2, _⟩ => rfl))

/-- The centred entry, as the variance reads it. -/
theorem centred_at (x0 : (⟨S4x2048x1024, .f32⟩ : BufTy).Contents (Elt Ideal)) (b : Fin 4) (s : Fin 2048) (k : Fin 1024) :
    val_main_v5 (F := Ideal) x0 (ix3 b s k) = Cert.Ffn.centred (fun k => x0 (ix3 b s k)) k := by
  rw [val_main_v5_apply, bmean_at, Ideal.subf_def]
  rfl

/-- The centred entry, as the normalisation reads it. -/
theorem centred_at' (x0 : (⟨S4x2048x1024, .f32⟩ : BufTy).Contents (Elt Ideal)) (b : Fin 4) (s : Fin 2048) (k : Fin 1024) :
    val_main_v12 (F := Ideal) x0 (ix3 b s k) = Cert.Ffn.centred (fun k => x0 (ix3 b s k)) k := by
  rw [val_main_v12_apply, bmean_at', Ideal.subf_def]
  rfl

/-- The reciprocal square root of the variance plus the constant, kept at (b, s, 0). -/
theorem rstd_at (x0 : (⟨S4x2048x1024, .f32⟩ : BufTy).Contents (Elt Ideal)) (b : Fin 4) (s : Fin 2048) :
    val_main_v15 (F := Ideal) x0 (ix3 b s (0 : Fin 1))
      = Ideal.rsqrt (Cert.Ffn.mean (fun k' => Cert.Ffn.centred (fun k => x0 (ix3 b s k)) k'
          * Cert.Ffn.centred (fun k => x0 (ix3 b s k)) k') + Ideal.ofBits .f32 0x3727C5AC#32) := by
  rw [val_main_v15_apply, val_main_v14_apply, val_main_v10_apply, val_main_v8_apply, val_main_v7_apply,
    val_main_v9_apply, val_main_v13_apply, val_main_cst_1_apply, val_main_cst_2_apply, val_main_cst_3_apply]
  simp only [Ideal.hostUnary_rsqrt_def, Ideal.addf_def, Ideal.hostDivf_def, Ideal.ofBits_def, Ideal.ofBits_zero_f32,
    zero_add]
  unfold Cert.Ffn.mean
  refine congrArg (fun t => Ideal.rsqrt (Ideal.div t _ + _)) (Finset.sum_congr rfl fun k _ => ?_)
  have e : idx_main_v7 (idx_main_v8 (ix3 b s (0 : Fin 1))) k = ix3 b s k :=
    funext fun a => Fin.ext (by match a with | ⟨0, _⟩ => rfl | ⟨1, _⟩ => rfl | ⟨2, _⟩ => rfl)
  rw [e, val_main_v6_apply, centred_at, Ideal.mulf_def]

/-- The normalised entry at (b, s, k). -/
theorem normed_at (x0 : (⟨S4x2048x1024, .f32⟩ : BufTy).Contents (Elt Ideal)) (x1 x2 : (⟨S1024, .f32⟩ : BufTy).Contents (Elt Ideal))
    (b : Fin 4) (s : Fin 2048) (k : Fin 1024) :
    val_main_v23 (F := Ideal) x0 x1 x2 (ix3 b s k)
      = Cert.Ffn.normed (fun k => x0 (ix3 b s k)) (fun k => x1 (ix1 k)) (fun k => x2 (ix1 k)) k := by
  have e16 : idx_main_v16 (ix3 b s k) = ix3 b s (0 : Fin 1) :=
    funext fun a => Fin.ext (by match a with | ⟨0, _⟩ => rfl | ⟨1, _⟩ => rfl | ⟨2, _⟩ => rfl)
  have e18 : idx_main_v18 (idx_main_v19 (ix3 b s k)) = ix1 k :=
    funext fun a => Fin.ext (by match a with | ⟨0, _⟩ => rfl)
  have e21 : idx_main_v21 (idx_main_v22 (ix3 b s k)) = ix1 k :=
    funext fun a => Fin.ext (by match a with | ⟨0, _⟩ => rfl)
  rw [val_main_v23_apply, val_main_v20_apply, val_main_v17_apply, val_main_v16_apply, val_main_v19_apply,
    val_main_v18_apply, val_main_v22_apply, val_main_v21_apply, e16, e18, e21, rstd_at, centred_at']
  simp only [Ideal.addf_def, Ideal.mulf_def]
  rfl

/-- The hidden feature at (b, s, f). -/
theorem hidden_at (x0 : (⟨S4x2048x1024, .f32⟩ : BufTy).Contents (Elt Ideal)) (x1 x2 : (⟨S1024, .f32⟩ : BufTy).Contents (Elt Ideal))
    (x3 : (⟨S1024x4096, .f32⟩ : BufTy).Contents (Elt Ideal)) (x4 : (⟨S4096, .f32⟩ : BufTy).Contents (Elt Ideal))
    (b : Fin 4) (s : Fin 2048) (f : Fin 4096) :
    val_main_v29 (F := Ideal) x0 x1 x2 x3 x4 (ix3 b s f)
      = Cert.Ffn.hidden (fun k => x0 (ix3 b s k)) (fun k => x1 (ix1 k)) (fun k => x2 (ix1 k)) (fun k f => x3 (ix2 k f))
          (fun f => x4 (ix1 f)) f := by
  have e25 : idx_main_v25 (idx_main_v26 (ix3 b s f)) = ix1 f :=
    funext fun a => Fin.ext (by match a with | ⟨0, _⟩ => rfl)
  rw [val_main_v29_apply, val_main_v27_apply, val_main_v24_apply, val_main_v26_apply, val_main_v25_apply,
    val_main_v28_apply, val_main_cst_4_apply, e25]
  simp only [Ideal.maximumf_def, Ideal.addf_def, Ideal.ofBits_def]
  unfold Cert.Ffn.hidden
  refine congrArg (fun t => max (t + _) _) (Finset.sum_congr rfl fun k _ => ?_)
  have el : lidx_main_v24 (ix3 b s f) k = ix3 b s k :=
    funext fun a => Fin.ext (by match a with | ⟨0, _⟩ => rfl | ⟨1, _⟩ => rfl | ⟨2, _⟩ => rfl)
  have er : ridx_main_v24 (ix3 b s f) k = ix2 k f :=
    funext fun a => Fin.ext (by match a with | ⟨0, _⟩ => rfl | ⟨1, _⟩ => rfl)
  rw [el, er, normed_at]

theorem result_apply (x0 : (⟨S4x2048x1024, .f32⟩ : BufTy).Contents (Elt Ideal)) (x1 x2 : (⟨S1024, .f32⟩ : BufTy).Contents (Elt Ideal))
    (x3 : (⟨S1024x4096, .f32⟩ : BufTy).Contents (Elt Ideal)) (x4 : (⟨S4096, .f32⟩ : BufTy).Contents (Elt Ideal))
    (x5 : (⟨S4096x1024, .f32⟩ : BufTy).Contents (Elt Ideal)) (x6 : (⟨S1024, .f32⟩ : BufTy).Contents (Elt Ideal))
    (b : Fin 4) (s : Fin 2048) (d : Fin 1024) :
    Cert.ReferenceIdeal.Read.val_main_v33 (F := Ideal) x0 x1 x2 x3 x4 x5 x6 (ix3 b s d)
      = Cert.Ffn.ffn (fun k => x0 (ix3 b s k)) (fun k => x1 (ix1 k)) (fun k => x2 (ix1 k)) (fun k f => x3 (ix2 k f))
          (fun f => x4 (ix1 f)) (fun f e => x5 (ix2 f e)) (fun e => x6 (ix1 e)) d := by
  have e31 : idx_main_v31 (idx_main_v32 (ix3 b s d)) = ix1 d :=
    funext fun a => Fin.ext (by match a with | ⟨0, _⟩ => rfl)
  rw [val_main_v33_apply, val_main_v30_apply, val_main_v32_apply, val_main_v31_apply, e31, Ideal.addf_def]
  unfold Cert.Ffn.ffn
  refine congrArg (· + _) (Finset.sum_congr rfl fun f _ => ?_)
  have el : lidx_main_v30 (ix3 b s d) f = ix3 b s f :=
    funext fun a => Fin.ext (by match a with | ⟨0, _⟩ => rfl | ⟨1, _⟩ => rfl | ⟨2, _⟩ => rfl)
  have er : ridx_main_v30 (ix3 b s d) f = ix2 f d :=
    funext fun a => Fin.ext (by match a with | ⟨0, _⟩ => rfl | ⟨1, _⟩ => rfl)
  rw [el, er, hidden_at]

end Cert.ReferenceIdeal.RefValue

end
-- ==== Proof.Payload.lean ====
/-
  The kernel body's stored value, read index by index: entry (p, q) of the block it stores is the row function
  `Cert.Ffn.ffn` of row p of the loaded input block, the loaded gain and shift rows, the two loaded weight matrices and
  the two loaded bias rows, at output coordinate q.

  Every operation of the body but five kinds acts entry by entry. The five are read at an index first: a cast of a
  vector to a column and the broadcast of a column along the lanes (the two keepdims forms), the broadcast of one row
  over all rows, the lane sum of a block (a sum over the 1024 entries of a row) and the product of two blocks into the
  zero block (a sum over the contracted coordinate). The stored value is then read in four stages, each a block-level
  function whose entry is one of the specification's row functions: the column of row means, the centred block, the
  normalised block, the hidden block; the result is the hidden block against the second weight matrix plus the bias.
  The narrowing to the shorter float format between the stages is the identity on the extended reals, and the three
  float constants are the same bit patterns as in the specification, so none is evaluated.
-/
import proofs.«125265_j53987738911461_1_alg».proof.Proof.Gen.KernelIdeal.Skeleton
import proofs.«125265_j53987738911461_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two keepdims layout forms, read at an index -/

/-- A vector of length `a` cast to the column shape `[a, 1]` reads, at `(i, u)`, the vector at `i`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum of a block's row -/

/-- The sum along the lanes of a `512 × 1024` block, read at row `p`, is the sum of that row's 1024 entries. -/
theorem rowSum_apply (src : FVec Ideal S512x1024 .f32) (h : S512x1024.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The two products -/

/-- Operand coordinates of the first product: at output `(p, c)` and contraction coordinate `k` the left operand is read
    at `(p, k)` and the right one at `(k, c)`. One fact per operand axis. -/
theorem lhs_first_0 (i : S512x4096.Idx) (q : dot_S512x1024_S1024x4096_S512x4096_1_0_0_1_n_n.contr.Idx) :
    (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
theorem lhs_first_1 (i : S512x4096.Idx) (q : dot_S512x1024_S1024x4096_S512x4096_1_0_0_1_n_n.contr.Idx) :
    (dot_S512x1024_S1024x4096_S512x4096_1_0_0_1_n_n.lhsIdx i q 1).val = (q ⟨0, by decide⟩).val :=
  dot_S512x1024_S1024x4096_S512x4096_1_0_0_1_n_n.lhsIdx_val_of_single rfl i q
theorem rhs_first_0 (i : S512x4096.Idx) (q : dot_S512x1024_S1024x4096_S512x4096_1_0_0_1_n_n.contr.Idx) :
    (dot_S512x1024_S1024x4096_S512x4096_1_0_0_1_n_n.rhsIdx i q 0).val = (q ⟨0, by decide⟩).val :=
  dot_S512x1024_S1024x4096_S512x4096_1_0_0_1_n_n.rhsIdx_val_of_single rfl i q
theorem rhs_first_1 (i : S512x4096.Idx) (q : dot_S512x1024_S1024x4096_S512x4096_1_0_0_1_n_n.contr.Idx) :
    (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

/-- The first product into the zero block, read at `(p, c)`: the sum over the 1024 contracted coordinates of the left
    operand's row `p` against the right operand's column `c` (the contraction index set is re-indexed by its one
    coordinate). -/
theorem matmul_first_apply (lhs : FVec Ideal S512x1024 .bf16) (rhs : FVec Ideal S1024x4096 .bf16) (p : Fin 512) (c : Fin 4096) :
    matmul (F := Ideal) dot_S512x1024_S1024x4096_S512x4096_1_0_0_1_n_n none lhs rhs (constant (F := Ideal) S512x4096 .f32 0x00000000#32) (ix2 p c)
      = ∑ k : Fin 1024, lhs (ix2 p k) * rhs (ix2 k c) := by
  simp only [matmul]
  rw [Ideal.matmul_constant_zero_apply, ← Equiv.sum_comp (ValueIdx.contrEquiv1 dot_S512x1024_S1024x4096_S512x4096_1_0_0_1_n_n 1024 rfl rfl).symm]
  refine Finset.sum_congr rfl fun k _ => ?_
  have hk := ValueIdx.contrEquiv1_symm_val dot_S512x1024_S1024x4096_S512x4096_1_0_0_1_n_n 1024 rfl rfl k
  have el : dot_S512x1024_S1024x4096_S512x4096_1_0_0_1_n_n.lhsIdx (ix2 p c) ((ValueIdx.contrEquiv1 dot_S512x1024_S1024x4096_S512x4096_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S512x1024_S1024x4096_S512x4096_1_0_0_1_n_n.rhsIdx (ix2 p c) ((ValueIdx.contrEquiv1 dot_S512x1024_S1024x4096_S512x4096_1_0_0_1_n_n 1024 rfl rfl).symm k) = ix2 k c := funext fun a => Fin.ext (by
    match a with
    | ⟨0, _⟩ => exact (rhs_first_0 _ _).trans hk
    | ⟨1, _⟩ => exact rhs_first_1 _ _)
  rw [el, er]

/-- Operand coordinates of the second product: at output `(p, c)` and contraction coordinate `k` the left operand is read
    at `(p, k)` and the right one at `(k, c)`. One fact per operand axis. -/
theorem lhs_second_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_second_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_second_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_second_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The second product into the zero block, read at `(p, c)`: the sum over the 4096 contracted coordinates of the left
    operand's row `p` against the right operand's column `c` (the contraction index set is re-indexed by its one
    coordinate). -/
theorem matmul_second_apply (lhs : FVec Ideal S512x4096 .bf16) (rhs : FVec Ideal S4096x1024 .bf16) (p : Fin 512) (c : Fin 1024) :
    matmul (F := Ideal) dot_S512x4096_S4096x1024_S512x1024_1_0_0_1_n_n none lhs rhs (constant (F := Ideal) S512x1024 .f32 0x00000000#32) (ix2 p c)
      = ∑ k : Fin 4096, lhs (ix2 p k) * rhs (ix2 k c) := by
  simp only [matmul]
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p c) ((ValueIdx.contrEquiv1 dot_S512x4096_S4096x1024_S512x1024_1_0_0_1_n_n 4096 rfl rfl).symm k) = ix2 p k := funext fun a => Fin.ext (by
    match a with
    | ⟨0, _⟩ => exact lhs_second_0 _ _
    | ⟨1, _⟩ => exact (lhs_second_1 _ _).trans hk)
  have er : dot_S512x4096_S4096x1024_S512x1024_1_0_0_1_n_n.rhsIdx (ix2 p c) ((ValueIdx.contrEquiv1 dot_S512x4096_S4096x1024_S512x1024_1_0_0_1_n_n 4096 rfl rfl).symm k) = ix2 k c := funext fun a => Fin.ext (by
    match a with
    | ⟨0, _⟩ => exact (rhs_second_0 _ _).trans hk
    | ⟨1, _⟩ => exact rhs_second_1 _ _)
  rw [el, er]

/-! ## The payload in four stages, each read at an index -/

/-- A reciprocal square root at an index is the extended reals' one of the element. -/
theorem rsqrt_apply {s : Shape} {φ : FTy} (a : FVec Ideal s φ) (i : s.Idx) : rsqrt a i = Ideal.rsqrt (a i) := rfl

/-- The column of a block's row means: the lane sums, as a column, each divided by the float 1024. -/
def rowMeans (src : FVec Ideal S512x1024 .f32) : FVec Ideal S512x1 .f32 :=
  divf (shapeCast S512x1 (multiReduction (F := Ideal) .add [1] S512 src 0x00000000#32 reduces_S512x1024_S512 (.inl rfl) rfl)
    shapeCasts_S512_S512x1) (broadcast S512x1 (Scalar.ofBits (F := Ideal) .f32 0x44800000#32))

/-- Entry `p` of the column of row means is the mean of row `p`. -/
theorem rowMeans_apply (src : FVec Ideal S512x1024 .f32) (p : Fin 512) (u : Fin 1) :
    rowMeans src (ix2 p u) = Cert.Ffn.mean fun k => src (ix2 p k) := by
  unfold rowMeans
  rw [divf_apply, broadcast_apply, shapeCast_a_a1_apply, rowSum_apply]
  rfl

/-- A block with each row's mean taken off that row. -/
def centredBlock (src : FVec Ideal S512x1024 .f32) : FVec Ideal S512x1024 .f32 :=
  subf src (broadcastTo S512x1024 (rowMeans src) broadcasts_S512x1_S512x1024)

/-- Entry `(p, k)` of the centred block is the centred row `p` at `k`. -/
theorem centredBlock_apply (src : FVec Ideal S512x1024 .f32) (p : Fin 512) (k : Fin 1024) :
    centredBlock src (ix2 p k) = Cert.Ffn.centred (fun k => src (ix2 p k)) k := by
  unfold centredBlock
  rw [subf_apply, broadcastTo_a1_ab_apply, rowMeans_apply]
  rfl

/-- The normalised block: the centred block, each row scaled by the reciprocal square root of the mean of its centred
    squares plus the constant, then every row scaled by the gain row and shifted by the shift row. -/
def normedBlock (x0 : FVec Ideal S512x1024 .f32) (g β : FVec Ideal S1x1024 .f32) : FVec Ideal S512x1024 .f32 :=
  addf (mulf (mulf (centredBlock x0)
      (broadcastTo S512x1024 (rsqrt (addf (rowMeans (mulf (centredBlock x0) (centredBlock x0)))
        (broadcast S512x1 (Scalar.ofBits (F := Ideal) .f32 0x3727C5AC#32)))) broadcasts_S512x1_S512x1024))
    (broadcastTo S512x1024 g broadcasts_S1x1024_S512x1024)) (broadcastTo S512x1024 β broadcasts_S1x1024_S512x1024)

/-- Entry `(p, k)` of the normalised block is the layer norm of row `p` at `k`. -/
theorem normedBlock_apply (x0 : FVec Ideal S512x1024 .f32) (g β : FVec Ideal S1x1024 .f32) (p : Fin 512) (k : Fin 1024) :
    normedBlock x0 g β (ix2 p k)
      = Cert.Ffn.normed (fun k => x0 (ix2 p k)) (fun k => g (ix2 (0 : Fin 1) k)) (fun k => β (ix2 (0 : Fin 1) k)) k := by
  unfold normedBlock
  rw [addf_apply, mulf_apply, mulf_apply, broadcastTo_a1_ab_apply, rsqrt_apply, addf_apply, broadcast_apply,
    rowMeans_apply, broadcastTo_1b_ab_apply, broadcastTo_1b_ab_apply, centredBlock_apply]
  simp only [mulf_apply, centredBlock_apply]
  rfl

/-- The hidden block: the normalised block against the first weight matrix, plus the bias row on every row, clipped
    below at zero. -/
def hiddenBlock (x0 : FVec Ideal S512x1024 .f32) (g β : FVec Ideal S1x1024 .f32) (w₁ : FVec Ideal S1024x4096 .bf16)
    (b₁ : FVec Ideal S1x4096 .f32) : FVec Ideal S512x4096 .f32 :=
  maximumf (addf (matmul (F := Ideal) dot_S512x1024_S1024x4096_S512x4096_1_0_0_1_n_n none
      (truncf .bf16 (normedBlock x0 g β) bitsLt_bf16_f32) w₁ (constant (F := Ideal) S512x4096 .f32 0x00000000#32))
    (broadcastTo S512x4096 b₁ broadcasts_S1x4096_S512x4096)) (broadcast S512x4096 (Scalar.ofBits (F := Ideal) .f32 0x00000000#32))

/-- Entry `(p, f)` of the hidden block is hidden feature `f` of row `p`. -/
theorem hiddenBlock_apply (x0 : FVec Ideal S512x1024 .f32) (g β : FVec Ideal S1x1024 .f32) (w₁ : FVec Ideal S1024x4096 .bf16)
    (b₁ : FVec Ideal S1x4096 .f32) (p : Fin 512) (f : Fin 4096) :
    hiddenBlock x0 g β w₁ b₁ (ix2 p f)
      = Cert.Ffn.hidden (fun k => x0 (ix2 p k)) (fun k => g (ix2 (0 : Fin 1) k)) (fun k => β (ix2 (0 : Fin 1) k))
          (fun k f => w₁ (ix2 k f)) (fun f => b₁ (ix2 (0 : Fin 1) f)) f := by
  unfold hiddenBlock
  rw [maximumf_apply, addf_apply, broadcast_apply, broadcastTo_1b_ab_apply, matmul_first_apply]
  simp only [truncf_apply, normedBlock_apply]
  rfl

/-- The first payload is the hidden block, narrowed. -/
theorem k0_pay2_eq (x0 : Vec Ideal S512x1024 .f32) (x1 x2 : Vec Ideal S1x1024 .f32) (x3 : Vec Ideal S1024x4096 .bf16)
    (x4 : Vec Ideal S1x4096 .f32) :
    k0_pay2 (F := Ideal) x0 x1 x2 x3 x4 = truncf .bf16 (hiddenBlock x0 x1 x2 x3 x4) bitsLt_bf16_f32 := by
  unfold k0_pay2
  simp only [shapeCast_self]
  rfl

/-! ## The stored value at an index -/

/-- Entry `(p, q)` of the stored block: the hidden block (narrowed) against the second weight matrix, plus the second bias
    row, is output feature `q` of row `p`. -/
theorem payload_apply (x0 : Vec Ideal S512x1024 .f32) (x1 x2 : Vec Ideal S1x1024 .f32) (x3 : Vec Ideal S1024x4096 .bf16)
    (x4 : Vec Ideal S1x4096 .f32) (x5 : Vec Ideal S4096x1024 .bf16) (x6 : Vec Ideal S1x1024 .f32) (p : Fin 512) (q : Fin 1024) :
    k0_pay1 (F := Ideal) (k0_pay2 (F := Ideal) x0 x1 x2 x3 x4) x5 x6 (ix2 p q)
      = Cert.Ffn.ffn (fun k => x0 (ix2 p k)) (fun k => x1 (ix2 (0 : Fin 1) k)) (fun k => x2 (ix2 (0 : Fin 1) k))
          (fun k f => x3 (ix2 k f)) (fun f => x4 (ix2 (0 : Fin 1) f)) (fun f e => x5 (ix2 f e))
          (fun e => x6 (ix2 (0 : Fin 1) e)) q := by
  rw [k0_pay2_eq]
  unfold k0_pay1
  simp only [shapeCast_self]
  rw [addf_apply, broadcastTo_1b_ab_apply, matmul_second_apply]
  simp only [truncf_apply, hiddenBlock_apply]
  rfl

end Cert.KernelIdeal.Body

end
-- ==== Proof.KernelValue.lean ====
/-
  The kernel program's value: after every execution its result array holds, entry (b, s, d), output coordinate d of
  row (b, s) of the input through the row function `Cert.Ffn.ffn`.

  The program merges the input's two leading axes (8192 rows), runs the kernel over sixteen blocks of 512 rows, and
  splits the axis again.  At grid point t the kernel body stores a block whose row p is the row function of row p of
  its input block (the payload lemma), and that input block is rows 512 t … 512 t + 511 of the merged input; the
  other six windows always hold their one whole array.  So what point t writes back is block row t of ONE function of
  the arrays the region finds, the sixteen blocks tile the output array, and the array ends holding that function.
  The arrays the region finds are the arguments re-read (a one-axis argument as a one-row matrix, the input with its
  leading axes merged) or narrowed to a shorter float format, which changes nothing on the extended reals; the result is the
  output array re-read.  Row 2048 b + s of the merged input is row (b, s) of the argument, which gives the statement.
-/
import proofs.«125265_j53987738911461_1_alg».proof.Proof.Gen.KernelIdeal.Frame
import proofs.«125265_j53987738911461_1_alg».proof.Proof.Spec
import proofs.«125265_j53987738911461_1_alg».proof.Proof.Payload
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## What the region finds: the arrays the host operations before it wrote -/

/-- The input as the region finds it: the three-axis argument re-read with its two leading axes merged. -/
theorem V_v0 (c : Dev nD) : (V m c main_v0 : S8192x1024.Idx → EReal) = shapeCast S8192x1024 (m ((c : Thread nD τ).loc main_arg0)) shapeCasts_S4x2048x1024_S8192x1024 := by
  show StableHlo.after hostOps0 (fun b => m (c, b)) (Proc.devRef .tc main_v0) = _
  after_results
  rfl

/-- The gain as a one-row matrix. -/
theorem V_v1 (c : Dev nD) : (V m c main_v1 : S1x1024.Idx → EReal) = shapeCast S1x1024 (m ((c : Thread nD τ).loc main_arg1)) shapeCasts_S1024_S1x1024 := by
  show StableHlo.after hostOps0 (fun b => m (c, b)) (Proc.devRef .tc main_v1) = _
  after_results
  rfl

/-- The shift as a one-row matrix. -/
theorem V_v2 (c : Dev nD) : (V m c main_v2 : S1x1024.Idx → EReal) = shapeCast S1x1024 (m ((c : Thread nD τ).loc main_arg2)) shapeCasts_S1024_S1x1024 := by
  show StableHlo.after hostOps0 (fun b => m (c, b)) (Proc.devRef .tc main_v2) = _
  after_results
  rfl

/-- The first bias as a one-row matrix. -/
theorem V_v3 (c : Dev nD) : (V m c main_v3 : S1x4096.Idx → EReal) = shapeCast S1x4096 (m ((c : Thread nD τ).loc main_arg4)) shapeCasts_S4096_S1x4096 := by
  show StableHlo.after hostOps0 (fun b => m (c, b)) (Proc.devRef .tc main_v3) = _
  after_results
  rfl

/-- The second bias as a one-row matrix. -/
theorem V_v4 (c : Dev nD) : (V m c main_v4 : S1x1024.Idx → EReal) = shapeCast S1x1024 (m ((c : Thread nD τ).loc main_arg6)) shapeCasts_S1024_S1x1024 := by
  show StableHlo.after hostOps0 (fun b => m (c, b)) (Proc.devRef .tc main_v4) = _
  after_results
  rfl

/-- The first weight matrix after its change of float format, which on the extended reals changes nothing. -/
theorem V_v5 (c : Dev nD) (i : S1024x4096.Idx) : (V m c main_v5 : S1024x4096.Idx → EReal) i = (m ((c : Thread nD τ).loc main_arg3) : S1024x4096.Idx → EReal) i := by
  have e : (V m c main_v5 : S1024x4096.Idx → EReal) = (truncf (F := Ideal) .bf16 (m ((c : Thread nD τ).loc main_arg3) : FVec Ideal S1024x4096 .f32) bitsLt_bf16_f32 : FVec Ideal S1024x4096 .bf16) := by
    show StableHlo.after hostOps0 (fun b => m (c, b)) (Proc.devRef .tc main_v5) = _
    after_results
  rw [e]
  rfl

/-- The second weight matrix likewise. -/
theorem V_v6 (c : Dev nD) (i : S4096x1024.Idx) : (V m c main_v6 : S4096x1024.Idx → EReal) i = (m ((c : Thread nD τ).loc main_arg5) : S4096x1024.Idx → EReal) i := by
  have e : (V m c main_v6 : S4096x1024.Idx → EReal) = (truncf (F := Ideal) .bf16 (m ((c : Thread nD τ).loc main_arg5) : FVec Ideal S4096x1024 .f32) bitsLt_bf16_f32 : FVec Ideal S4096x1024 .bf16) := by
    show StableHlo.after hostOps0 (fun b => m (c, b)) (Proc.devRef .tc main_v6) = _
    after_results
  rw [e]
  rfl

/-! ## One function for the whole output array -/

theorem hz : (![0, 0] : Fin 2 → Nat) = fun _ => 0 := funext fun a => by fin_cases a <;> rfl

/-- Row `i 0` of the merged input through the row function, at output coordinate `i 1`. -/
def wholeFn (A0 : S8192x1024.Idx → EReal) (A1 A2 : S1x1024.Idx → EReal) (A3 : S1024x4096.Idx → EReal) (A4 : S1x4096.Idx → EReal)
    (A5 : S4096x1024.Idx → EReal) (A6 : S1x1024.Idx → EReal) : S8192x1024.Idx → EReal := fun i =>
  Cert.Ffn.ffn (fun k => A0 (ix2 (⟨(i 0).val, idx2_lt0 i⟩ : Fin 8192) k)) (fun k => A1 (ix2 (0 : Fin 1) k)) (fun k => A2 (ix2 (0 : Fin 1) k))
    (fun k f => A3 (ix2 k f)) (fun f => A4 (ix2 (0 : Fin 1) f)) (fun f e => A5 (ix2 f e)) (fun e => A6 (ix2 (0 : Fin 1) e))
    (⟨(i 1).val, idx2_lt1 i⟩ : Fin 1024)

/-- The printed index maps over the grid: the input's and the output's block at point `t` is block row `t`; every
    other window stays at its one block. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 16 := by have h : t.val < grid0.N := t.isLt; have := N_0; omega

/-- Row `p` of the input block at point `t` is row `512 t + p` of the merged input. -/
theorem blk0_read (c : Dev nD) (t : Fin cfg0.N) (p : Fin 512) (k : Fin 1024) :
    iblk m c 0 t (ix2 p k) = (V m c main_v0 : S8192x1024.Idx → EReal) (ix2 (⟨t.val * 512 + p.val, by have := t_lt t; omega⟩ : Fin 8192) k) := by
  show (V m c main_v0 : S8192x1024.Idx → EReal) (((cfg0.win 0).blk t).view.emb (ix2 p k)) = _
  refine congrArg _ (funext fun a => Fin.ext ?_)
  obtain ⟨e0, e1, -⟩ := idx_facts t
  match a with
  | ⟨0, _⟩ => show win0_0.index t (0 : Fin 2) * 512 + 1 * p.val = t.val * 512 + p.val; omega
  | ⟨1, _⟩ => show win0_0.index t (1 : Fin 2) * 1024 + 1 * k.val = k.val; omega

theorem blk1_read (c : Dev nD) (t : Fin cfg0.N) (u : Fin 1) (k : Fin 1024) :
    iblk m c 1 t (ix2 u k) = (V m c main_v1 : S1x1024.Idx → EReal) (ix2 u k) := by
  show (V m c main_v1 : S1x1024.Idx → EReal) (((cfg0.win 1).blk t).view.emb (ix2 u k)) = _
  refine congrArg _ (funext fun a => Fin.ext ?_)
  obtain ⟨-, -, -, -, e0, e1, -⟩ := idx_facts t
  match a with
  | ⟨0, _⟩ => show win0_1.index t (0 : Fin 2) * 1 + 1 * u.val = u.val; omega
  | ⟨1, _⟩ => show win0_1.index t (1 : Fin 2) * 1024 + 1 * k.val = k.val; omega

theorem blk2_read (c : Dev nD) (t : Fin cfg0.N) (u : Fin 1) (k : Fin 1024) :
    iblk m c 2 t (ix2 u k) = (V m c main_v2 : S1x1024.Idx → EReal) (ix2 u k) := by
  show (V m c main_v2 : S1x1024.Idx → EReal) (((cfg0.win 2).blk t).view.emb (ix2 u k)) = _
  refine congrArg _ (funext fun a => Fin.ext ?_)
  obtain ⟨-, -, -, -, -, -, e0, e1, -⟩ := idx_facts t
  match a with
  | ⟨0, _⟩ => show win0_2.index t (0 : Fin 2) * 1 + 1 * u.val = u.val; omega
  | ⟨1, _⟩ => show win0_2.index t (1 : Fin 2) * 1024 + 1 * k.val = k.val; omega

theorem blk3_read (c : Dev nD) (t : Fin cfg0.N) (k : Fin 1024) (f : Fin 4096) :
    iblk m c 3 t (ix2 k f) = (V m c main_v5 : S1024x4096.Idx → EReal) (ix2 k f) := by
  show (V m c main_v5 : S1024x4096.Idx → EReal) (((cfg0.win 3).blk t).view.emb (ix2 k f)) = _
  refine congrArg _ (funext fun a => Fin.ext ?_)
  obtain ⟨-, -, -, -, -, -, -, -, e0, e1, -⟩ := idx_facts t
  match a with
  | ⟨0, _⟩ => show win0_3.index t (0 : Fin 2) * 1024 + 1 * k.val = k.val; omega
  | ⟨1, _⟩ => show win0_3.index t (1 : Fin 2) * 4096 + 1 * f.val = f.val; omega

theorem blk4_read (c : Dev nD) (t : Fin cfg0.N) (u : Fin 1) (f : Fin 4096) :
    iblk m c 4 t (ix2 u f) = (V m c main_v3 : S1x4096.Idx → EReal) (ix2 u f) := by
  show (V m c main_v3 : S1x4096.Idx → EReal) (((cfg0.win 4).blk t).view.emb (ix2 u f)) = _
  refine congrArg _ (funext fun a => Fin.ext ?_)
  obtain ⟨-, -, -, -, -, -, -, -, -, -, e0, e1, -⟩ := idx_facts t
  match a with
  | ⟨0, _⟩ => show win0_4.index t (0 : Fin 2) * 1 + 1 * u.val = u.val; omega
  | ⟨1, _⟩ => show win0_4.index t (1 : Fin 2) * 4096 + 1 * f.val = f.val; omega

theorem blk5_read (c : Dev nD) (t : Fin cfg0.N) (f : Fin 4096) (e : Fin 1024) :
    iblk m c 5 t (ix2 f e) = (V m c main_v6 : S4096x1024.Idx → EReal) (ix2 f e) := by
  show (V m c main_v6 : S4096x1024.Idx → EReal) (((cfg0.win 5).blk t).view.emb (ix2 f e)) = _
  refine congrArg _ (funext fun a => Fin.ext ?_)
  obtain ⟨-, -, -, -, -, -, -, -, -, -, -, -, e0, e1, -⟩ := idx_facts t
  match a with
  | ⟨0, _⟩ => show win0_5.index t (0 : Fin 2) * 4096 + 1 * f.val = f.val; omega
  | ⟨1, _⟩ => show win0_5.index t (1 : Fin 2) * 1024 + 1 * e.val = e.val; omega

theorem blk6_read (c : Dev nD) (t : Fin cfg0.N) (u : Fin 1) (k : Fin 1024) :
    iblk m c 6 t (ix2 u k) = (V m c main_v4 : S1x1024.Idx → EReal) (ix2 u k) := by
  show (V m c main_v4 : S1x1024.Idx → EReal) (((cfg0.win 6).blk t).view.emb (ix2 u k)) = _
  refine congrArg _ (funext fun a => Fin.ext ?_)
  obtain ⟨-, -, -, -, -, -, -, -, -, -, -, -, -, -, e0, e1⟩ := idx_facts t
  match a with
  | ⟨0, _⟩ => show win0_6.index t (0 : Fin 2) * 1 + 1 * u.val = u.val; omega
  | ⟨1, _⟩ => show win0_6.index t (1 : Fin 2) * 1024 + 1 * k.val = k.val; omega

/-- What point `t` writes back is block row `t` of the one function of the arrays the region finds. -/
theorem flushed_eq (c : Dev nD) (t : Fin cfg0.N) :
    (dats m 0 c).flushed 7 t = ((cfg0.win 7).blk t).view.read (Elt Ideal)
      (wholeFn (V m c main_v0) (V m c main_v1) (V m c main_v2) (V m c main_v5) (V m c main_v3) (V m c main_v6) (V m c main_v4)) := by
  show (cfg0.win 7).cut (grid0.coords t) ((dats m 0 c).after 7 t) = _
  rw [after0_7]
  unfold out0_7
  rw [View.canon_unit_zero hz]
  simp only [View.ld_unit_zero (S := S512x1024) hz, View.ld_unit_zero (S := S1x1024) hz, View.ld_unit_zero (S := S1024x4096) hz, View.ld_unit_zero (S := S1x4096) hz, View.ld_unit_zero (S := S4096x1024) hz]
  funext j
  have hp : (j 0).val < 512 := (j 0).isLt
  have hq : (j 1).val < 1024 := (j 1).isLt
  have hj : (win0 7).xinj (grid0.coords t) j = ix2 (⟨(j 0).val, hp⟩ : Fin 512) (⟨(j 1).val, hq⟩ : Fin 1024) :=
    funext fun a => Fin.ext (by match a with | ⟨0, _⟩ => rfl | ⟨1, _⟩ => rfl)
  show k0_pay1 (k0_pay2 (iblk m c 0 t) (iblk m c 1 t) (iblk m c 2 t) (iblk m c 3 t) (iblk m c 4 t)) (iblk m c 5 t) (iblk m c 6 t) ((win0 7).xinj (grid0.coords t) j) = _
  rw [hj]
  refine (Cert.KernelIdeal.Body.payload_apply (iblk m c 0 t) (iblk m c 1 t) (iblk m c 2 t) (iblk m c 3 t) (iblk m c 4 t) (iblk m c 5 t) (iblk m c 6 t) _ _).trans ?_
  have e0 : ((((cfg0.win 7).blk t).view.emb j) 0).val = t.val * 512 + (j 0).val := by
    obtain ⟨-, -, e0, -⟩ := idx_facts t
    show win0_7.index t (0 : Fin 2) * 512 + 1 * (j 0).val = _
    omega
  have e1 : ((((cfg0.win 7).blk t).view.emb j) 1).val = (j 1).val := by
    obtain ⟨-, -, -, e1, -⟩ := idx_facts t
    show win0_7.index t (1 : Fin 2) * 1024 + 1 * (j 1).val = _
    omega
  show _ = wholeFn _ _ _ _ _ _ _ (((cfg0.win 7).blk t).view.emb j)
  unfold wholeFn
  simp only [blk0_read, blk1_read, blk2_read, blk3_read, blk4_read, blk5_read, blk6_read, e0, e1]

/-- An index of the output array is in point `t`'s block iff each coordinate is in the block's range on its axis. -/
theorem mem_blk (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7).slice (win0_7.rect t)).set ↔ _
  rw [View.set_slice_whole, Rect.mem_set_unit]
  exact Iff.rfl

/-- Row `r` of the output lies in the block of point `r / 512`: the sixteen blocks of 512 rows tile the array. -/
theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < grid0.N := by rw [N_0]; omega
  refine ⟨⟨(i 0).val / 512, hN⟩, flush0_7 _, ?_⟩
  rw [mem_blk]
  obtain ⟨-, -, e0, e1, -⟩ := idx_facts ⟨(i 0).val / 512, hN⟩
  have ht : (⟨(i 0).val / 512, hN⟩ : Fin cfg0.N).val = (i 0).val / 512 := rfl
  intro a
  match a with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    omega
  | ⟨1, _⟩ =>
    show win0_7.index ⟨(i 0).val / 512, hN⟩ (1 : Fin 2) * 1024 ≤ (i 1).val ∧ (i 1).val < win0_7.index ⟨(i 0).val / 512, hN⟩ (1 : Fin 2) * 1024 + 1024
    omega

/-- The output array after the region: the one function of the arrays the region found. -/
theorem final (c : Dev nD) : (dats m 0 c).arrAt 7 cfg0.N
    = wholeFn (V m c main_v0) (V m c main_v1) (V m c main_v2) (V m c main_v5) (V m c main_v3) (V m c main_v6) (V m c main_v4) :=
  (dats m 0 c).arrAt_eq_of_cover 7 _ (fun t _ => flushed_eq m c t) cover

/-- The program's result: the output array re-read with its leading axis split in two. -/
theorem tail_eq (c : Dev nD) : (Pipeline.afterTail₀ cfgs (dats m) 0 (V0 m) [hostOps1] c main_v8 : S4x2048x1024.Idx → EReal)
    = shapeCast S4x2048x1024 (wholeFn (V m c main_v0) (V m c main_v1) (V m c main_v2) (V m c main_v5) (V m c main_v3) (V m c main_v6) (V m c main_v4)) shapeCasts_S8192x1024_S4x2048x1024 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = wholeFn (V m c main_v0) (V m c main_v1) (V m c main_v2) (V m c main_v5) (V m c main_v3) (V m c main_v6) (V m c main_v4) :=
    (Pipeline.withArrays_arr spec0 launch0.win.arr_inj c _ _ 7).trans (final m c)
  rw [hw]
  rfl

/-! ## The arrays the region finds, entry by entry, as the arguments -/

/-- Entry (2048 b + s, k) of the merged input is entry (b, s, k) of the argument. -/
theorem v0_at (c : Dev nD) (b : Fin 4) (s : Fin 2048) (k : Fin 1024) (r : Fin 8192) (hr : r.val = b.val * 2048 + s.val) :
    (V m c main_v0 : S8192x1024.Idx → EReal) (ix2 r k) = (m ((c : Thread nD τ).loc main_arg0) : S4x2048x1024.Idx → EReal) (ix3 b s k) := by
  rw [V_v0]
  refine shapeCast_apply (s := S4x2048x1024) (t := S8192x1024) _ _ _ _ ?_
  rw [Shape.rowMajor_val_two, Shape.rowMajor_val_three]
  show (b.val * 2048 + s.val) * 1024 + k.val = r.val * 1024 + k.val
  rw [hr]

theorem v1_at (c : Dev nD) (k : Fin 1024) :
    (V m c main_v1 : S1x1024.Idx → EReal) (ix2 (0 : Fin 1) k) = (m ((c : Thread nD τ).loc main_arg1) : S1024.Idx → EReal) (ix1 k) := by
  rw [V_v1]; exact shapeCast_a_1a_apply _ _ _ _

theorem v2_at (c : Dev nD) (k : Fin 1024) :
    (V m c main_v2 : S1x1024.Idx → EReal) (ix2 (0 : Fin 1) k) = (m ((c : Thread nD τ).loc main_arg2) : S1024.Idx → EReal) (ix1 k) := by
  rw [V_v2]; exact shapeCast_a_1a_apply _ _ _ _

theorem v3_at (c : Dev nD) (f : Fin 4096) :
    (V m c main_v3 : S1x4096.Idx → EReal) (ix2 (0 : Fin 1) f) = (m ((c : Thread nD τ).loc main_arg4) : S4096.Idx → EReal) (ix1 f) := by
  rw [V_v3]; exact shapeCast_a_1a_apply _ _ _ _

theorem v4_at (c : Dev nD) (k : Fin 1024) :
    (V m c main_v4 : S1x1024.Idx → EReal) (ix2 (0 : Fin 1) k) = (m ((c : Thread nD τ).loc main_arg6) : S1024.Idx → EReal) (ix1 k) := by
  rw [V_v4]; exact shapeCast_a_1a_apply _ _ _ _

/-- The row function depends on its arguments entry by entry. -/
theorem ffn_congr {r r' g g' β β' : Fin 1024 → EReal} {w₁ w₁' : Fin 1024 → Fin 4096 → EReal} {b₁ b₁' : Fin 4096 → EReal}
    {w₂ w₂' : Fin 4096 → Fin 1024 → EReal} {b₂ b₂' : Fin 1024 → EReal} (d : Fin 1024)
    (h0 : ∀ k, r k = r' k) (h1 : ∀ k, g k = g' k) (h2 : ∀ k, β k = β' k) (h3 : ∀ k f, w₁ k f = w₁' k f)
    (h4 : ∀ f, b₁ f = b₁' f) (h5 : ∀ f e, w₂ f e = w₂' f e) (h6 : ∀ e, b₂ e = b₂' e) :
    Cert.Ffn.ffn r g β w₁ b₁ w₂ b₂ d = Cert.Ffn.ffn r' g' β' w₁' b₁' w₂' b₂' d := by
  obtain rfl : r = r' := funext h0
  obtain rfl : g = g' := funext h1
  obtain rfl : β = β' := funext h2
  obtain rfl : w₁ = w₁' := funext fun k => funext (h3 k)
  obtain rfl : b₁ = b₁' := funext h4
  obtain rfl : w₂ = w₂' := funext fun f => funext (h5 f)
  obtain rfl : b₂ = b₂' := funext h6
  rfl

/-! ## The result as a function of the arguments -/

/-- The program's result, entry by entry: entry (b, s, d) of the re-read output array is entry (2048 b + s, d) of the
    array, whose row is row (b, s) of the argument; the one-row matrices are the one-axis arguments, and the weight
    matrices are the arguments themselves. -/
theorem result_eq (c : Dev nD) :
    shapeCast S4x2048x1024 (wholeFn (V m c main_v0) (V m c main_v1) (V m c main_v2) (V m c main_v5) (V m c main_v3) (V m c main_v6) (V m c main_v4)) shapeCasts_S8192x1024_S4x2048x1024
      = Cert.Ffn.resultFn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  funext i
  have h0 : (i 0).val < 4 := (i 0).isLt
  have h1 : (i 1).val < 2048 := (i 1).isLt
  have h2 : (i 2).val < 1024 := (i 2).isLt
  refine (shapeCast_apply _ shapeCasts_S8192x1024_S4x2048x1024 i (ix2 (⟨(i 0).val * 2048 + (i 1).val, by omega⟩ : Fin 8192) (⟨(i 2).val, h2⟩ : Fin 1024)) ?_).trans ?_
  · rw [Shape.rowMajor_val_two, Shape.rowMajor_val_three]
    show ((i 0).val * 2048 + (i 1).val) * 1024 + (i 2).val = ((i 0).val * 2048 + (i 1).val) * 1024 + (i 2).val
    rfl
  · unfold wholeFn Cert.Ffn.resultFn
    exact ffn_congr _ (fun k => v0_at m c _ _ k _ rfl) (v1_at m c) (v2_at m c) (fun k f => V_v5 m c _) (v3_at m c)
      (fun f e => V_v6 m c _) (v4_at m c)

/-! ## The run, read -/

/-- Every execution of the program ends with its result array at the whole result function of the arguments as
    launched, and the arguments unchanged: the frame run, with the output array named (`final`), the re-reading after
    the region read (`tail_eq`) and the arrays before it traced back to the arguments (`result_eq`). -/
theorem run : θ_run defs (onTc (τ := τ) (main (F := Ideal))) ⟨m, fun _ => 0, ρ⟩ fun r => ∀ c : Dev nD,
      r.2.mem ((c.tc : Thread nD τ).loc main_v8)
        = Cert.Ffn.resultFn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.lean ====
/-
  A fused feed-forward kernel (layer norm, a linear layer into 4096 features, a clip at zero, a linear layer back to
  1024 features) against its plain reference, over the extended reals.

  Both programs compute, for every row (b, s) of the input and every output coordinate d, the same number: the row
  function `Cert.Ffn.ffn` (Proof/Spec.lean) of that row, the gain, the shift, the two weight matrices and the two
  biases.  The kernel does it on the input with its two leading axes merged, sixteen blocks of 512 rows at a time,
  feeding its two matrix products operands narrowed to a shorter float format; the reference does it on the
  three-axis input with two general dot products.  On the extended reals a change of float format is the identity,
  a matrix product into a zero accumulator and a general dot product are the same finite sum over the contracted
  coordinate, a lane sum and a host sum from zero are the same finite sum, the division by the float 1024 and the
  reciprocal square root are the same operations on both sides, and the constants are the same bit patterns; the tiling
  and the merging of axes only rename rows.  So the two results are equal entry by entry, on every input: no
  algebraic law beyond reading the two terms is needed, and the precondition is not used.

  Proof/Payload.lean reads the kernel body's stored block entry by entry; Proof/KernelValue.lean carries that through
  the blocks, the host operations around the region and the run; Proof/RefSide.lean reads the reference entry by entry.
  The kernel's two frames are its generated frame runs, the reference's frame is its run with the result dropped, and
  the idealization rewrote nothing.
-/
import proofs.«125265_j53987738911461_1_alg».proof.Defs
import proofs.«125265_j53987738911461_1_alg».proof.Proof.Gen.Kernel
import proofs.«125265_j53987738911461_1_alg».proof.Proof.Gen.Kernel.Skeleton
import proofs.«125265_j53987738911461_1_alg».proof.Proof.Gen.Kernel.Launch
import proofs.«125265_j53987738911461_1_alg».proof.Proof.Gen.Kernel.Points
import proofs.«125265_j53987738911461_1_alg».proof.Proof.Gen.Kernel.Frame
import proofs.«125265_j53987738911461_1_alg».proof.Proof.Gen.KernelIdeal
import proofs.«125265_j53987738911461_1_alg».proof.Proof.Gen.KernelIdeal.Skeleton
import proofs.«125265_j53987738911461_1_alg».proof.Proof.Gen.KernelIdeal.Launch
import proofs.«125265_j53987738911461_1_alg».proof.Proof.Gen.KernelIdeal.Points
import proofs.«125265_j53987738911461_1_alg».proof.Proof.Gen.KernelIdeal.Frame
import proofs.«125265_j53987738911461_1_alg».proof.Proof.Gen.ReferenceIdeal
import proofs.«125265_j53987738911461_1_alg».proof.Proof.Gen.Pre_finite_inputs
import proofs.«125265_j53987738911461_1_alg».proof.Proof.Gen.ReferenceIdeal.Run
import proofs.«125265_j53987738911461_1_alg».proof.Proof.Gen.ReferenceIdeal.Read
import proofs.«125265_j53987738911461_1_alg».proof.Proof.Spec
import proofs.«125265_j53987738911461_1_alg».proof.Proof.RefSide
import proofs.«125265_j53987738911461_1_alg».proof.Proof.KernelValue
import Idealize.ShloMosaic.Adequacy
import Idealize.ShloMosaic.Init

noncomputable section

namespace Cert.Proof

open Idealize.ShloMosaic Idealize.ShloMosaic.ValueIdx Idealize.SL.Sem

/-- The reference's result, as one array, is the whole result function of its arguments: its entry (b, s, d) is the
    row function of row (b, s) at d. -/
theorem reference_result (x0 : (⟨Cert.ReferenceIdeal.S4x2048x1024, .f32⟩ : BufTy).Contents (Elt Ideal))
    (x1 x2 : (⟨Cert.ReferenceIdeal.S1024, .f32⟩ : BufTy).Contents (Elt Ideal))
    (x3 : (⟨Cert.ReferenceIdeal.S1024x4096, .f32⟩ : BufTy).Contents (Elt Ideal))
    (x4 : (⟨Cert.ReferenceIdeal.S4096, .f32⟩ : BufTy).Contents (Elt Ideal))
    (x5 : (⟨Cert.ReferenceIdeal.S4096x1024, .f32⟩ : BufTy).Contents (Elt Ideal))
    (x6 : (⟨Cert.ReferenceIdeal.S1024, .f32⟩ : BufTy).Contents (Elt Ideal)) :
    Cert.ReferenceIdeal.Read.val_main_v33 (F := Ideal) x0 x1 x2 x3 x4 x5 x6 = Cert.Ffn.resultFn x0 x1 x2 x3 x4 x5 x6 := by
  funext i
  have e : i = ix3 (⟨(i 0).val, (i 0).isLt⟩ : Fin 4) (⟨(i 1).val, (i 1).isLt⟩ : Fin 2048) (⟨(i 2).val, (i 2).isLt⟩ : Fin 1024) :=
    funext fun a => Fin.ext (by match a with | ⟨0, _⟩ => rfl | ⟨1, _⟩ => rfl | ⟨2, _⟩ => rfl)
  refine (congrArg (Cert.ReferenceIdeal.Read.val_main_v33 (F := Ideal) x0 x1 x2 x3 x4 x5 x6) e).trans ?_
  exact Cert.ReferenceIdeal.RefValue.result_apply x0 x1 x2 x3 x4 x5 x6 _ _ _

/-- The kernel program at the word level runs and leaves its arguments as they were: its generated frame run. -/
theorem frame_kernel : Cert.frame_Kernel := fun m ρ _ => Cert.Kernel.Gen.frame m ρ

/-- The same of the program read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the whole result function of those arguments
    in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, reference_result, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
